-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x256 : Shape := ⟨2, ![20000, 256]⟩
abbrev S20000x32x256 : Shape := ⟨3, ![20000, 32, 256]⟩
abbrev S256x10 : Shape := ⟨2, ![256, 10]⟩
abbrev S10 : Shape := ⟨1, ![10]⟩
abbrev S10x512 : Shape := ⟨2, ![10, 512]⟩
abbrev S512 : Shape := ⟨1, ![512]⟩
abbrev S256x512 : Shape := ⟨2, ![256, 512]⟩
abbrev S_ : Shape := ⟨0, ![]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S20000x32x256 : S_.BroadcastsInDim S20000x32x256 (![] : Fin 0 → Fin S20000x32x256.rank)
  reducesTo_S20000x32x256_S_d0_1_2 : S20000x32x256.ReducesTo [0, 1, 2] S_
  bcast_S_S256x10 : S_.BroadcastsInDim S256x10 (![] : Fin 0 → Fin S256x10.rank)
  reducesTo_S256x10_S_d0_1 : S256x10.ReducesTo [0, 1] S_
  bcast_S_S10 : S_.BroadcastsInDim S10 (![] : Fin 0 → Fin S10.rank)
  reducesTo_S10_S_d0 : S10.ReducesTo [0] S_
  bcast_S_S10x512 : S_.BroadcastsInDim S10x512 (![] : Fin 0 → Fin S10x512.rank)
  reducesTo_S10x512_S_d0_1 : S10x512.ReducesTo [0, 1] S_
  bcast_S_S512 : S_.BroadcastsInDim S512 (![] : Fin 0 → Fin S512.rank)
  reducesTo_S512_S_d0 : S512.ReducesTo [0] S_
  bcast_S_S256x512 : S_.BroadcastsInDim S256x512 (![] : Fin 0 → Fin S256x512.rank)
  reducesTo_S256x512_S_d0_1 : S256x512.ReducesTo [0, 1] S_

variable [Facts]

def fn_part2 {F : FTy → Type} [FloatOps F] (main_arg7 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg4 : FVec F S10x512 .f32) (main_arg5 : FVec F S512 .f32) (main_arg6 : FVec F S256x512 .f32) (main_arg7 : FVec F S512 .f32) (main_v13 : IVec S_ 1) (main_v16 : IVec S10 1) : IVec S_ 1 :=
  let main_c_5 : IVec S_ 1 := constantI S_ 1 1#1
  let main_v17 : IVec S_ 1 := (fun x v => Host.reduce IntOp.andi x v reducesTo_S10_S_d0 h_S_) main_v16 main_c_5
  let main_v18 : IVec S_ 1 := andi main_v13 main_v17
  let main_v19 : FVec F S10x512 .f32 := Host.absf main_arg4
  let main_cst_6 : FVec F S_ .f32 := constant S_ .f32 0x7F800000#32
  let main_v20 : FVec F S10x512 .f32 := broadcastInDim S10x512 ![] bcast_S_S10x512 main_cst_6
  let main_v21 : IVec S10x512 1 := cmpf .olt main_v19 main_v20
  let main_c_7 : IVec S_ 1 := constantI S_ 1 1#1
  let main_v22 : IVec S_ 1 := (fun x v => Host.reduce IntOp.andi x v reducesTo_S10x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S256x512 .f32 := Host.absf main_arg6
  let main_cst_10 : FVec F S_ .f32 := constant S_ .f32 0x7F800000#32
  let main_v30 : FVec F S256x512 .f32 := broadcastInDim S256x512 ![] bcast_S_S256x512 main_cst_10
  let main_v31 : IVec S256x512 1 := cmpf .olt main_v29 main_v30
  let main_c_11 : IVec S_ 1 := constantI S_ 1 1#1
  let main_v32 : IVec S_ 1 := (fun x v => Host.reduce IntOp.andi x v reducesTo_S256x512_S_d0_1 h_S_) main_v31 main_c_11
  let main_v33 : IVec S_ 1 := andi main_v28 main_v32
  fn_part2 (F := F) main_arg7 main_v33

def fn {F : FTy → Type} [FloatOps F] (main_arg0 : FVec F S20000x256 .f32) (main_arg1 : FVec F S20000x32x256 .f32) (main_arg2 : FVec F S256x10 .f32) (main_arg3 : FVec F S10 .f32) (main_arg4 : FVec F S10x512 .f32) (main_arg5 : FVec F S512 .f32) (main_arg6 : FVec F S256x512 .f32) (main_arg7 : FVec F S512 .f32) : IVec S_ 1 :=
  let main_v0 : FVec F S20000x256 .f32 := Host.absf main_arg0
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S20000x32x256 .f32 := Host.absf main_arg1
  let main_cst_0 : FVec F S_ .f32 := constant S_ .f32 0x7F800000#32
  let main_v5 : FVec F S20000x32x256 .f32 := broadcastInDim S20000x32x256 ![] bcast_S_S20000x32x256 main_cst_0
  let main_v6 : IVec S20000x32x256 1 := cmpf .olt main_v4 main_v5
  let main_c_1 : IVec S_ 1 := constantI S_ 1 1#1
  let main_v7 : IVec S_ 1 := (fun x v => Host.reduce IntOp.andi x v reducesTo_S20000x32x256_S_d0_1_2 h_S_) main_v6 main_c_1
  let main_v8 : IVec S_ 1 := andi main_v3 main_v7
  let main_v9 : FVec F S256x10 .f32 := Host.absf main_arg2
  let main_cst_2 : FVec F S_ .f32 := constant S_ .f32 0x7F800000#32
  let main_v10 : FVec F S256x10 .f32 := broadcastInDim S256x10 ![] bcast_S_S256x10 main_cst_2
  let main_v11 : IVec S256x10 1 := cmpf .olt main_v9 main_v10
  let main_c_3 : IVec S_ 1 := constantI S_ 1 1#1
  let main_v12 : IVec S_ 1 := (fun x v => Host.reduce IntOp.andi x v reducesTo_S256x10_S_d0_1 h_S_) main_v11 main_c_3
  let main_v13 : IVec S_ 1 := andi main_v8 main_v12
  let main_v14 : FVec F S10 .f32 := Host.absf main_arg3
  let main_cst_4 : FVec F S_ .f32 := constant S_ .f32 0x7F800000#32
  let main_v15 : FVec F S10 .f32 := broadcastInDim S10 ![] bcast_S_S10 main_cst_4
  let main_v16 : IVec S10 1 := cmpf .olt main_v14 main_v15
  fn_part1 (F := F) main_arg4 main_arg5 main_arg6 main_arg7 main_v13 main_v16
-- ==== Kernel.lean ====
abbrev S20000x256 : Shape := ⟨2, ![20000, 256]⟩
abbrev S20000x32x256 : Shape := ⟨3, ![20000, 32, 256]⟩
abbrev S256x10 : Shape := ⟨2, ![256, 10]⟩
abbrev S10 : Shape := ⟨1, ![10]⟩
abbrev S10x512 : Shape := ⟨2, ![10, 512]⟩
abbrev S512 : Shape := ⟨1, ![512]⟩
abbrev S256x512 : Shape := ⟨2, ![256, 512]⟩
abbrev S20000x1024 : Shape := ⟨2, ![20000, 1024]⟩
abbrev S400x256 : Shape := ⟨2, ![400, 256]⟩
abbrev S400x32x256 : Shape := ⟨3, ![400, 32, 256]⟩
abbrev S400x1024 : Shape := ⟨2, ![400, 1024]⟩
abbrev S12800x256 : Shape := ⟨2, ![12800, 256]⟩
abbrev S12800x10 : Shape := ⟨2, ![12800, 10]⟩
abbrev S1x10 : Shape := ⟨2, ![1, 10]⟩
abbrev S400x32x10 : Shape := ⟨3, ![400, 32, 10]⟩
abbrev S400x10 : Shape := ⟨2, ![400, 10]⟩
abbrev S400x512 : Shape := ⟨2, ![400, 512]⟩
abbrev S1x512 : Shape := ⟨2, ![1, 512]⟩

abbrev nBuf : Space → Nat
  | .hbm => 9
  | .vmem => 12
  | .smem => 0
  | _ => 0

abbrev bufTy : (tb : Table) → Fin (tcTables nBuf tb) → BufTy
  | .hbm, ⟨0, _⟩ => ⟨S20000x256, .f32⟩
  | .hbm, ⟨1, _⟩ => ⟨S20000x32x256, .f32⟩
  | .hbm, ⟨2, _⟩ => ⟨S256x10, .f32⟩
  | .hbm, ⟨3, _⟩ => ⟨S10, .f32⟩
  | .hbm, ⟨4, _⟩ => ⟨S10x512, .f32⟩
  | .hbm, ⟨5, _⟩ => ⟨S512, .f32⟩
  | .hbm, ⟨6, _⟩ => ⟨S256x512, .f32⟩
  | .hbm, ⟨7, _⟩ => ⟨S512, .f32⟩
  | .hbm, ⟨8, _⟩ => ⟨S20000x1024, .f32⟩
  | .local _ .vmem, ⟨0, _⟩ => ⟨S400x256, .f32⟩
  | .local _ .vmem, ⟨1, _⟩ => ⟨S400x256, .f32⟩
  | .local _ .vmem, ⟨2, _⟩ => ⟨S400x32x256, .f32⟩
  | .local _ .vmem, ⟨3, _⟩ => ⟨S400x32x256, .f32⟩
  | .local _ .vmem, ⟨4, _⟩ => ⟨S256x10, .f32⟩
  | .local _ .vmem, ⟨5, _⟩ => ⟨S10, .f32⟩
  | .local _ .vmem, ⟨6, _⟩ => ⟨S10x512, .f32⟩
  | .local _ .vmem, ⟨7, _⟩ => ⟨S512, .f32⟩
  | .local _ .vmem, ⟨8, _⟩ => ⟨S256x512, .f32⟩
  | .local _ .vmem, ⟨9, _⟩ => ⟨S512, .f32⟩
  | .local _ .vmem, ⟨10, _⟩ => ⟨S400x1024, .f32⟩
  | .local _ .vmem, ⟨11, _⟩ => ⟨S400x1024, .f32⟩
  | _, _ => ⟨S20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S400x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  inb_S400x32x256_S400x32x256_0_0_0 : ∀ a, (![0, 0, 0] : Fin 3 → Nat) a + S400x32x256.size a ≤ S400x32x256.size a
  h_S400x32x256 : 0 < S400x32x256.numel
  shapeCasts_S400x32x256_S12800x256 : S400x32x256.ShapeCasts S12800x256
  inb_S256x10_S256x10_0_0 : ∀ a, (![0, 0] : Fin 2 → Nat) a + S256x10.size a ≤ S256x10.size a
  h_S256x10 : 0 < S256x10.numel
  inb_S10_S10_0 : ∀ a, (![0] : Fin 1 → Nat) a + S10.size a ≤ S10.size a
  h_S10 : 0 < S10.numel
  shapeCasts_S10_S1x10 : S10.ShapeCasts S1x10
  broadcasts_S1x10_S12800x10 : S1x10.Broadcasts S12800x10
  shapeCasts_S12800x10_S400x32x10 : S12800x10.ShapeCasts S400x32x10
  reduces_S400x32x10_S400x10 : S400x32x10.Reduces [1] S400x10
  inb_S10x512_S10x512_0_0 : ∀ a, (![0, 0] : Fin 2 → Nat) a + S10x512.size a ≤ S10x512.size a
  h_S10x512 : 0 < S10x512.numel
  inb_S512_S512_0 : ∀ a, (![0] : Fin 1 → Nat) a + S512.size a ≤ S512.size a
  h_S512 : 0 < S512.numel
  shapeCasts_S512_S1x512 : S512.ShapeCasts S1x512
  broadcasts_S1x512_S400x512 : S1x512.Broadcasts S400x512
  inb_S400x256_S400x256_0_0 : ∀ a, (![0, 0] : Fin 2 → Nat) a + S400x256.size a ≤ S400x256.size a
  h_S400x256 : 0 < S400x256.numel
  inb_S256x512_S256x512_0_0 : ∀ a, (![0, 0] : Fin 2 → Nat) a + S256x512.size a ≤ S256x512.size a
  h_S256x512 : 0 < S256x512.numel
  concatenates_S400x512_S400x512_S400x1024_d1 : Shape.Concatenates [S400x512, S400x512] S400x1024 1
  inb_S400x1024_S400x1024_0_0 : ∀ a, (![0, 0] : Fin 2 → Nat) a + S400x1024.size a ≤ S400x1024.size a
  h_S400x1024 : 0 < S400x1024.numel
  dot_S12800x256_S256x10_S12800x10_1_0_0_1_n_n_wf : DotDims.WF S12800x256 S256x10 S12800x10 [1] [0] [0] [1] [] []
  dot_S400x10_S10x512_S400x512_1_0_0_1_n_n_wf : DotDims.WF S400x10 S10x512 S400x512 [1] [0] [0] [1] [] []
  dot_S400x256_S256x512_S400x512_1_0_0_1_n_n_wf : DotDims.WF S400x256 S256x512 S400x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x256.size a ≤ S20000x256.size a
  hwx0_0 : ∀ i : grid0.Coords, EltTy.bits .f32 = 32 ∨ (Rect.block (s := S20000x256) S400x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x32x256.size a ≤ S20000x32x256.size a
  hwx0_1 : ∀ i : grid0.Coords, EltTy.bits .f32 = 32 ∨ (Rect.block (s := S20000x32x256) S400x32x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x10.size a ≤ S256x10.size a
  hwx0_2 : ∀ i : grid0.Coords, EltTy.bits .f32 = 32 ∨ (Rect.block (s := S256x10) S256x10.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10.size a ≤ S10.size a
  hwx0_3 : ∀ i : grid0.Coords, EltTy.bits .f32 = 32 ∨ (Rect.block (s := S10) S10.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10x512.size a ≤ S10x512.size a
  hwx0_4 : ∀ i : grid0.Coords, EltTy.bits .f32 = 32 ∨ (Rect.block (s := S10x512) S10x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x512.size a ≤ S256x512.size a
  hwx0_6 : ∀ i : grid0.Coords, EltTy.bits .f32 = 32 ∨ (Rect.block (s := S256x512) S256x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S512.size a
  hwx0_7 : ∀ i : grid0.Coords, EltTy.bits .f32 = 32 ∨ (Rect.block (s := S512) S512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S400x1024.size a ≤ S20000x1024.size a
  hwx0_8 : ∀ i : grid0.Coords, EltTy.bits .f32 = 32 ∨ (Rect.block (s := S20000x1024) S400x1024.size (cc0_transform_8 i) (hinb0_8 i)).WholeWords (EltTy.packing .f32)

variable [Facts₀]

def dot_S12800x256_S256x10_S12800x10_1_0_0_1_n_n : DotDims S12800x256 S256x10 S12800x10 where
  lhsContracting := [1]
  rhsContracting := [0]
  lhsNonContracting := [0]
  rhsNonContracting := [1]
  lhsBatch := []
  rhsBatch := []
  wf := dot_S12800x256_S256x10_S12800x10_1_0_0_1_n_n_wf
def dot_S400x10_S10x512_S400x512_1_0_0_1_n_n : DotDims S400x10 S10x512 S400x512 where
  lhsContracting := [1]
  rhsContracting := [0]
  lhsNonContracting := [0]
  rhsNonContracting := [1]
  lhsBatch := []
  rhsBatch := []
  wf := dot_S400x10_S10x512_S400x512_1_0_0_1_n_n_wf
def dot_S400x256_S256x512_S400x512_1_0_0_1_n_n : DotDims S400x256 S256x512 S400x512 where
  lhsContracting := [1]
  rhsContracting := [0]
  lhsNonContracting := [0]
  rhsNonContracting := [1]
  lhsBatch := []
  rhsBatch := []
  wf := dot_S400x256_S256x512_S400x512_1_0_0_1_n_n_wf

abbrev win0_0 : Pipeline.Window sig grid0 :=
  Pipeline.Window.ofSpec (Memref.whole main_arg0) S400x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x32x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x10.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S10x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S400x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S20000x256 : Shape := ⟨2, ![20000, 256]⟩
abbrev S20000x32x256 : Shape := ⟨3, ![20000, 32, 256]⟩
abbrev S256x10 : Shape := ⟨2, ![256, 10]⟩
abbrev S10 : Shape := ⟨1, ![10]⟩
abbrev S10x512 : Shape := ⟨2, ![10, 512]⟩
abbrev S512 : Shape := ⟨1, ![512]⟩
abbrev S256x512 : Shape := ⟨2, ![256, 512]⟩
abbrev S20000x32x10 : Shape := ⟨3, ![20000, 32, 10]⟩
abbrev S1x1x10 : Shape := ⟨3, ![1, 1, 10]⟩
abbrev S_ : Shape := ⟨0, ![]⟩
abbrev S20000x10 : Shape := ⟨2, ![20000, 10]⟩
abbrev S20000x512 : Shape := ⟨2, ![20000, 512]⟩
abbrev S1x512 : Shape := ⟨2, ![1, 512]⟩
abbrev S20000x1024 : Shape := ⟨2, ![20000, 1024]⟩

abbrev nBuf : Space → Nat
  | .hbm => 26
  | .vmem => 0
  | .smem => 0
  | _ => 0

abbrev bufTy : (tb : Table) → Fin (tcTables nBuf tb) → BufTy
  | .hbm, ⟨0, _⟩ => ⟨S20000x256, .f32⟩
  | .hbm, ⟨1, _⟩ => ⟨S20000x32x256, .f32⟩
  | .hbm, ⟨2, _⟩ => ⟨S256x10, .f32⟩
  | .hbm, ⟨3, _⟩ => ⟨S10, .f32⟩
  | .hbm, ⟨4, _⟩ => ⟨S10x512, .f32⟩
  | .hbm, ⟨5, _⟩ => ⟨S512, .f32⟩
  | .hbm, ⟨6, _⟩ => ⟨S256x512, .f32⟩
  | .hbm, ⟨7, _⟩ => ⟨S512, .f32⟩
  | .hbm, ⟨8, _⟩ => ⟨S20000x32x10, .f32⟩
  | .hbm, ⟨9, _⟩ => ⟨S1x1x10, .f32⟩
  | .hbm, ⟨10, _⟩ => ⟨S20000x32x10, .f32⟩
  | .hbm, ⟨11, _⟩ => ⟨S20000x32x10, .f32⟩
  | .hbm, ⟨12, _⟩ => ⟨S_, .f32⟩
  | .hbm, ⟨13, _⟩ => ⟨S20000x32x10, .f32⟩
  | .hbm, ⟨14, _⟩ => ⟨S20000x32x10, .f32⟩
  | .hbm, ⟨15, _⟩ => ⟨S_, .f32⟩
  | .hbm, ⟨16, _⟩ => ⟨S20000x10, .f32⟩
  | .hbm, ⟨17, _⟩ => ⟨S20000x512, .f32⟩
  | .hbm, ⟨18, _⟩ => ⟨S1x512, .f32⟩
  | .hbm, ⟨19, _⟩ => ⟨S20000x512, .f32⟩
  | .hbm, ⟨20, _⟩ => ⟨S20000x512, .f32⟩
  | .hbm, ⟨21, _⟩ => ⟨S20000x512, .f32⟩
  | .hbm, ⟨22, _⟩ => ⟨S1x512, .f32⟩
  | .hbm, ⟨23, _⟩ => ⟨S20000x512, .f32⟩
  | .hbm, ⟨24, _⟩ => ⟨S20000x512, .f32⟩
  | .hbm, ⟨25, _⟩ => ⟨S20000x1024, .f32⟩
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩

abbrev nD : Nat := 1
abbrev τ : Topo := Topo.v7x

variable {F : FTy → Type} [FloatOps F]

class Facts₀ : Prop where
  bcast_S10_S1x1x10_2 : S10.BroadcastsInDim S1x1x10 (![2] : Fin 1 → Fin S1x1x10.rank)
  bcast_S1x1x10_S20000x32x10_0_1_2 : S1x1x10.BroadcastsInDim S20000x32x10 (![0, 1, 2] : Fin 3 → Fin S20000x32x10.rank)
  bcast_S_S20000x32x10 : S_.BroadcastsInDim S20000x32x10 (![] : Fin 0 → Fin S20000x32x10.rank)
  reducesTo_S20000x32x10_S20000x10_d1 : S20000x32x10.ReducesTo [1] S20000x10
  h_S_ : 0 < S_.numel
  bcast_S512_S1x512_1 : S512.BroadcastsInDim S1x512 (![1] : Fin 1 → Fin S1x512.rank)
  bcast_S1x512_S20000x512_0_1 : S1x512.BroadcastsInDim S20000x512 (![0, 1] : Fin 2 → Fin S20000x512.rank)
  concatenates_S20000x512_S20000x512_S20000x1024_d1 : Shape.Concatenates [S20000x512, S20000x512] S20000x1024 1
  dot_S20000x32x256_S256x10_S20000x32x10_2_0_01_1_n_n_wf : DotDims.WF S20000x32x256 S256x10 S20000x32x10 [2] [0] [0, 1] [1] [] []
  dot_S20000x10_S10x512_S20000x512_1_0_0_1_n_n_wf : DotDims.WF S20000x10 S10x512 S20000x512 [1] [0] [0] [1] [] []
  dot_S20000x256_S256x512_S20000x512_1_0_0_1_n_n_wf : DotDims.WF S20000x256 S256x512 S20000x512 [1] [0] [0] [1] [] []

variable [Facts₀]

def dot_S20000x32x256_S256x10_S20000x32x10_2_0_01_1_n_n : DotDims S20000x32x256 S256x10 S20000x32x10 where
  lhsContracting := [2]
  rhsContracting := [0]
  lhsNonContracting := [0, 1]
  rhsNonContracting := [1]
  lhsBatch := []
  rhsBatch := []
  wf := dot_S20000x32x256_S256x10_S20000x32x10_2_0_01_1_n_n_wf
def dot_S20000x10_S10x512_S20000x512_1_0_0_1_n_n : DotDims S20000x10 S10x512 S20000x512 where
  lhsContracting := [1]
  rhsContracting := [0]
  lhsNonContracting := [0]
  rhsNonContracting := [1]
  lhsBatch := []
  rhsBatch := []
  wf := dot_S20000x10_S10x512_S20000x512_1_0_0_1_n_n_wf
def dot_S20000x256_S256x512_S20000x512_1_0_0_1_n_n : DotDims S20000x256 S256x512 S20000x512 where
  lhsContracting := [1]
  rhsContracting := [0]
  lhsNonContracting := [0]
  rhsNonContracting := [1]
  lhsBatch := []
  rhsBatch := []
  wf := dot_S20000x256_S256x512_S20000x512_1_0_0_1_n_n_wf

class Facts : Prop extends Facts₀ where

variable [Facts]
-- ==== Proof.Spec.lean ====
/-
  The aggregator's result, one output row at a time.

  For one node, with feature row `s : Fin 256 → EReal` and 32 neighbour rows `nbs n : Fin 256 → EReal`:
  every neighbour goes through one dense layer of 10 hidden units followed by the positive part,
  `hidden (nbs n) h = max (∑ d, nbs n d · W1 d h + b1 h) 0`; the hidden units are pooled over the neighbours by the maximum,
  `pooled nbs h = max over n of hidden (nbs n) h` (folded from −∞); the pooled vector and the node's own row each go through a
  dense layer of 512 outputs, and the output row is the node's 512 entries followed by the neighbours' 512 entries.
  Both the zero and −∞ are kept as the words both programs print; nothing here evaluates them.
-/
import Idealize.ShloMosaic.PureOps.Ideal
import Idealize.ShloMosaic.Lib.ValueIdx

noncomputable section

open scoped BigOperators

namespace Cert.NeighbourPool

open Idealize.ShloMosaic Idealize.ShloMosaic.ValueIdx

/-- One neighbour's hidden unit `h`: the dense layer's sum over the 256 features plus the bias, cut below at zero. -/
def hidden (nb : Fin 256 → EReal) (W1 : (⟨2, ![256, 10]⟩ : Shape).Idx → EReal) (b1 : (⟨1, ![10]⟩ : Shape).Idx → EReal)
    (h : Fin 10) : EReal :=
  max ((∑ d : Fin 256, nb d * W1 (ix2 d h)) + b1 (ix1 h)) (Ideal.ofBits .f32 0x00000000#32)

/-- Hidden unit `h` pooled over the 32 neighbours: the maximum, folded from the word for −∞. -/
def pooled (nbs : Fin 32 → Fin 256 → EReal) (W1 : (⟨2, ![256, 10]⟩ : Shape).Idx → EReal)
    (b1 : (⟨1, ![10]⟩ : Shape).Idx → EReal) (h : Fin 10) : EReal :=
  (Finset.univ : Finset (Fin 32)).fold max (Ideal.ofBits .f32 0xFF800000#32) (fun n => hidden (nbs n) W1 b1 h)

/-- Output `j` of the neighbours' half: the pooled vector through the second dense layer. -/
def fromNeighs (nbs : Fin 32 → Fin 256 → EReal) (W1 : (⟨2, ![256, 10]⟩ : Shape).Idx → EReal)
    (b1 : (⟨1, ![10]⟩ : Shape).Idx → EReal) (Wt1 : (⟨2, ![10, 512]⟩ : Shape).Idx → EReal)
    (bt1 : (⟨1, ![512]⟩ : Shape).Idx → EReal) (j : Fin 512) : EReal :=
  (∑ h : Fin 10, pooled nbs W1 b1 h * Wt1 (ix2 h j)) + bt1 (ix1 j)

/-- Output `j` of the node's own half: its feature row through its dense layer. -/
def fromSelf (s : Fin 256 → EReal) (Wt2 : (⟨2, ![256, 512]⟩ : Shape).Idx → EReal)
    (bt2 : (⟨1, ![512]⟩ : Shape).Idx → EReal) (j : Fin 512) : EReal :=
  (∑ k : Fin 256, s k * Wt2 (ix2 k j)) + bt2 (ix1 j)

/-- The output row: columns below 512 are the node's own half, the others the neighbours' half, 512 columns further on. -/
def rowOut (s : Fin 256 → EReal) (nbs : Fin 32 → Fin 256 → EReal) (W1 : (⟨2, ![256, 10]⟩ : Shape).Idx → EReal)
    (b1 : (⟨1, ![10]⟩ : Shape).Idx → EReal) (Wt1 : (⟨2, ![10, 512]⟩ : Shape).Idx → EReal)
    (bt1 : (⟨1, ![512]⟩ : Shape).Idx → EReal) (Wt2 : (⟨2, ![256, 512]⟩ : Shape).Idx → EReal)
    (bt2 : (⟨1, ![512]⟩ : Shape).Idx → EReal) (q : Fin 1024) : EReal :=
  if h : q.val < 512 then fromSelf s Wt2 bt2 ⟨q.val, h⟩
  else fromNeighs nbs W1 b1 Wt1 bt1 ⟨q.val - 512, by have := q.isLt; omega⟩

theorem rowOut_of_lt (s : Fin 256 → EReal) (nbs : Fin 32 → Fin 256 → EReal) (W1 : (⟨2, ![256, 10]⟩ : Shape).Idx → EReal)
    (b1 : (⟨1, ![10]⟩ : Shape).Idx → EReal) (Wt1 : (⟨2, ![10, 512]⟩ : Shape).Idx → EReal)
    (bt1 : (⟨1, ![512]⟩ : Shape).Idx → EReal) (Wt2 : (⟨2, ![256, 512]⟩ : Shape).Idx → EReal)
    (bt2 : (⟨1, ![512]⟩ : Shape).Idx → EReal) (q : Fin 1024) (j : Fin 512) (hj : j.val = q.val) :
    rowOut s nbs W1 b1 Wt1 bt1 Wt2 bt2 q = fromSelf s Wt2 bt2 j := by
  have hq : q.val < 512 := hj ▸ j.isLt
  unfold rowOut
  rw [dif_pos hq]
  exact congrArg _ (Fin.ext hj.symm)

theorem rowOut_of_ge (s : Fin 256 → EReal) (nbs : Fin 32 → Fin 256 → EReal) (W1 : (⟨2, ![256, 10]⟩ : Shape).Idx → EReal)
    (b1 : (⟨1, ![10]⟩ : Shape).Idx → EReal) (Wt1 : (⟨2, ![10, 512]⟩ : Shape).Idx → EReal)
    (bt1 : (⟨1, ![512]⟩ : Shape).Idx → EReal) (Wt2 : (⟨2, ![256, 512]⟩ : Shape).Idx → EReal)
    (bt2 : (⟨1, ![512]⟩ : Shape).Idx → EReal) (q : Fin 1024) (j : Fin 512) (hj : j.val + 512 = q.val) :
    rowOut s nbs W1 b1 Wt1 bt1 Wt2 bt2 q = fromNeighs nbs W1 b1 Wt1 bt1 j := by
  have hq : ¬ q.val < 512 := by omega
  unfold rowOut
  rw [dif_neg hq]
  exact congrArg _ (Fin.ext (by show q.val - 512 = j.val; omega))

/-- The whole result array: row `r` is the output row of node `r`'s features and its 32 neighbours' features. -/
def result (self : (⟨2, ![20000, 256]⟩ : Shape).Idx → EReal) (neigh : (⟨3, ![20000, 32, 256]⟩ : Shape).Idx → EReal)
    (W1 : (⟨2, ![256, 10]⟩ : Shape).Idx → EReal) (b1 : (⟨1, ![10]⟩ : Shape).Idx → EReal)
    (Wt1 : (⟨2, ![10, 512]⟩ : Shape).Idx → EReal) (bt1 : (⟨1, ![512]⟩ : Shape).Idx → EReal)
    (Wt2 : (⟨2, ![256, 512]⟩ : Shape).Idx → EReal) (bt2 : (⟨1, ![512]⟩ : Shape).Idx → EReal) :
    (⟨2, ![20000, 1024]⟩ : Shape).Idx → EReal :=
  fun i => rowOut (fun k => self (ix2 (n0 := 20000) (n1 := 256) (i 0) k))
    (fun n d => neigh (ix3 (n0 := 20000) (n1 := 32) (n2 := 256) (i 0) n d)) W1 b1 Wt1 bt1 Wt2 bt2 (i 1)

end Cert.NeighbourPool

end
-- ==== Proof.RefValue.lean ====
/-
  The reference's result is the specification, entry by entry.

  Its stages are read at an index from the inside out: the bias rows (two broadcasts of a vector), the three products
  (sums over the contracted axis), the positive part, the maximum over the neighbour axis (a fold of `max` over that
  axis's 32 coordinates, from the initial value −∞) and the join of the two halves along the columns.
-/
import proofs.«129768_j28767690949357_1_alg».proof.Proof.Gen.ReferenceIdeal.Read
import proofs.«129768_j28767690949357_1_alg».proof.Proof.Spec
import Idealize.ShloMosaic.PureOps.Reduce

noncomputable section

open scoped BigOperators

namespace Cert.NeighbourPool.Reference

open Cert.ReferenceIdeal Cert.ReferenceIdeal.Gen Cert.ReferenceIdeal.Read Cert.NeighbourPool
open Idealize.ShloMosaic Idealize.ShloMosaic.ValueIdx

variable (x0 : (⟨S20000x256, .f32⟩ : BufTy).Contents (Elt Ideal)) (x1 : (⟨S20000x32x256, .f32⟩ : BufTy).Contents (Elt Ideal))
  (x2 : (⟨S256x10, .f32⟩ : BufTy).Contents (Elt Ideal)) (x3 : (⟨S10, .f32⟩ : BufTy).Contents (Elt Ideal))
  (x4 : (⟨S10x512, .f32⟩ : BufTy).Contents (Elt Ideal)) (x5 : (⟨S512, .f32⟩ : BufTy).Contents (Elt Ideal))
  (x6 : (⟨S256x512, .f32⟩ : BufTy).Contents (Elt Ideal)) (x7 : (⟨S512, .f32⟩ : BufTy).Contents (Elt Ideal))

/-- The node's own half at row `r`, column `j`: the product's sum over the 256 features plus the bias entry. -/
theorem self_half (r : Fin 20000) (j : Fin 512) :
    val_main_v13 (F := Ideal) x0 x6 x7 (ix2 r j) = fromSelf (fun k => x0 (ix2 r k)) x6 x7 j := by
  rw [val_main_v13_apply, val_main_v10_apply, val_main_v12_apply, val_main_v11_apply]
  unfold fromSelf
  have eb : idx_main_v11 (idx_main_v12 (ix2 r j)) = ix1 j := funext fun a => Fin.ext (by match a with | ⟨0, _⟩ => rfl)
  have el : ∀ k : Fin 256, lidx_main_v10 (ix2 r j) k = ix2 r k := fun k =>
    funext fun a => Fin.ext (by match a with | ⟨0, _⟩ => rfl | ⟨1, _⟩ => rfl)
  have er : ∀ k : Fin 256, ridx_main_v10 (ix2 r j) k = ix2 k j := fun k =>
    funext fun a => Fin.ext (by match a with | ⟨0, _⟩ => rfl | ⟨1, _⟩ => rfl)
  rw [eb]
  simp only [el, er]
  rfl

/-- One neighbour's hidden unit: the product's sum, the bias entry, and the positive part against the zero word. -/
theorem hidden_unit (r : Fin 20000) (n : Fin 32) (h : Fin 10) :
    val_main_v4 (F := Ideal) x1 x2 x3 (ix3 r n h) = hidden (fun d => x1 (ix3 r n d)) x2 x3 h := by
  rw [val_main_v4_apply, val_main_v3_apply, val_main_v0_apply, val_main_v2_apply, val_main_v1_apply,
    val_main_call0_v0_apply, val_main_call0_cst_apply]
  unfold hidden
  have eb : idx_main_v1 (idx_main_v2 (ix3 r n h)) = ix1 h := funext fun a => Fin.ext (by match a with | ⟨0, _⟩ => rfl)
  have el : ∀ d : Fin 256, lidx_main_v0 (ix3 r n h) d = ix3 r n d := fun d =>
    funext fun a => Fin.ext (by match a with | ⟨0, _⟩ => rfl | ⟨1, _⟩ => rfl | ⟨2, _⟩ => rfl)
  have er : ∀ d : Fin 256, ridx_main_v0 (ix3 r n h) d = ix2 d h := fun d =>
    funext fun a => Fin.ext (by match a with | ⟨0, _⟩ => rfl | ⟨1, _⟩ => rfl)
  rw [eb]
  simp only [el, er]
  rfl

/-- The neighbour axis as a `Reduces` fact, whose `lift` names the index with the neighbour's coordinate put back. -/
theorem neighbour_axis : S20000x32x10.Reduces [1] S20000x10 := by decide

/-- Putting neighbour `n` back into the index (row, unit) gives (row, neighbour, unit). -/
theorem lift_neighbour (r : Fin 20000) (n : Fin 32) (h : Fin 10) : neighbour_axis.lift (ix2 r h) n = ix3 r n h :=
  funext fun a => Fin.ext (by match a with | ⟨0, _⟩ => rfl | ⟨1, _⟩ => rfl | ⟨2, _⟩ => rfl)

/-- The pooled hidden unit: the host's reduction is the fold of `max` over the 32 neighbours from −∞. -/
theorem pooled_unit (r : Fin 20000) (h : Fin 10) :
    val_main_v5 (F := Ideal) x1 x2 x3 (ix2 r h) = pooled (fun n d => x1 (ix3 r n d)) x2 x3 h := by
  unfold val_main_v5
  rw [Host.reduce_eq_fold_single FloatOps.maximumf _ _ reducesTo_S20000x32x10_S20000x10_d1 neighbour_axis h_S_ (ix2 r h)]
  unfold pooled
  show (Finset.univ : Finset (Fin 32)).fold max (Ideal.ofBits .f32 0xFF800000#32)
      (val_main_v4 (F := Ideal) x1 x2 x3 ∘ neighbour_axis.lift (ix2 r h)) = _
  exact Finset.fold_congr fun n _ =>
    (congrArg (val_main_v4 (F := Ideal) x1 x2 x3) (lift_neighbour r n h)).trans (hidden_unit x1 x2 x3 r n h)

/-- The neighbours' half at row `r`, column `j`: the pooled vector's product plus the bias entry. -/
theorem neigh_half (r : Fin 20000) (j : Fin 512) :
    val_main_v9 (F := Ideal) x1 x2 x3 x4 x5 (ix2 r j)
      = fromNeighs (fun n d => x1 (ix3 r n d)) x2 x3 x4 x5 j := by
  rw [val_main_v9_apply, val_main_v6_apply, val_main_v8_apply, val_main_v7_apply]
  unfold fromNeighs
  have eb : idx_main_v7 (idx_main_v8 (ix2 r j)) = ix1 j := funext fun a => Fin.ext (by match a with | ⟨0, _⟩ => rfl)
  have el : ∀ k : Fin 10, lidx_main_v6 (ix2 r j) k = ix2 r k := fun k =>
    funext fun a => Fin.ext (by match a with | ⟨0, _⟩ => rfl | ⟨1, _⟩ => rfl)
  have er : ∀ k : Fin 10, ridx_main_v6 (ix2 r j) k = ix2 k j := fun k =>
    funext fun a => Fin.ext (by match a with | ⟨0, _⟩ => rfl | ⟨1, _⟩ => rfl)
  rw [eb]
  simp only [el, er, pooled_unit]
  rfl

/-- The reference's result array is the specification of its arguments. -/
theorem result_eq :
    val_main_v14 (F := Ideal) x0 x1 x2 x3 x4 x5 x6 x7 = result x0 x1 x2 x3 x4 x5 x6 x7 := by
  funext i
  obtain ⟨r, q, rfl⟩ : ∃ (r : Fin 20000) (q : Fin 1024), i = ix2 r q := ⟨i 0, i 1, eq_ix2 i⟩
  unfold val_main_v14 result
  by_cases hq : q.val < 512
  · rw [concatenate_pair_apply_left (1 : Fin S20000x1024.rank) _ _ concatenates_S20000x512_S20000x512_S20000x1024_d1
      (ix2 r q) rfl (ix2 r ⟨q.val, hq⟩) (fun b => by match b with | ⟨0, _⟩ => rfl | ⟨1, _⟩ => rfl)]
    rw [self_half]
    exact (rowOut_of_lt _ _ _ _ _ _ _ _ q ⟨q.val, hq⟩ rfl).symm
  · have hq' : q.val - 512 < 512 := by have := q.isLt; omega
    rw [concatenate_pair_apply_right (1 : Fin S20000x1024.rank) _ _ concatenates_S20000x512_S20000x512_S20000x1024_d1
      (ix2 r q) rfl rfl (ix2 r ⟨q.val - 512, hq'⟩)
      (fun b hb => by match b with | ⟨0, _⟩ => rfl | ⟨1, _⟩ => exact absurd rfl hb)
      (by show q.val - 512 + 512 = q.val; omega)]
    rw [neigh_half]
    exact (rowOut_of_ge _ _ _ _ _ _ _ _ q ⟨q.val - 512, hq'⟩ (by show q.val - 512 + 512 = q.val; omega)).symm

end Cert.NeighbourPool.Reference

end
-- ==== Proof.LibContraction.lean ====
/-
  A contraction over ONE axis, with no batch axis and one free axis on each operand, read by coordinates.

  For dimension numbers `d` whose contracting lists are the singletons `[cl]` and `[cr]`, the contraction's index set
  is in bijection with `Fin n`, `n` the extent of the contracted axis (`contrFin`), so a sum over it is a sum over `Fin n`
  (`sum_contr`). At the contraction position that `i : Fin n` names, the left operand's index has `i` on its contracted
  axis and the result's first coordinate on its free axis; the right operand's has `i` on its contracted axis and the
  result's second coordinate on its free axis. Each of the four facts is stated of the coordinate's VALUE (a natural
  number), so that a proof at literal shapes finishes with `Fin.ext`.
-/
import Idealize.ShloMosaic.PureOps.Ideal.Laws
import Idealize.ShloMosaic.Lib.ValueIdx

noncomputable section

open scoped BigOperators

namespace Cert.Lib.Contraction

open Idealize.ShloMosaic Idealize.ShloMosaic.ValueIdx

variable {sl sr so : Shape} (d : DotDims sl sr so)

/-- One contracted axis: the contraction's shape has rank one. -/
theorem contr_rank {cl : Fin sl.rank} (hc : d.lhsContracting = [cl]) : d.contr.rank = 1 :=
  d.rank_contr.trans (by rw [hc]; rfl)

/-- Its one extent is the contracted axis's. -/
theorem contr_size {cl : Fin sl.rank} (hc : d.lhsContracting = [cl]) (n : Nat) (hn : sl.size cl = n) :
    d.contr.size ⟨0, by rw [contr_rank d hc]; exact Nat.one_pos⟩ = n := by
  have h := d.size_contr 0 (by rw [hc]; exact Nat.one_pos)
  rw [← hn]
  refine h.trans ?_
  simp [hc]

/-- The contraction's positions are the numbers below the contracted extent. -/
def contrFin {cl : Fin sl.rank} (hc : d.lhsContracting = [cl]) (n : Nat) (hn : sl.size cl = n) : d.contr.Idx ≃ Fin n :=
  contrEquiv1 d n (contr_rank d hc) (contr_size d hc n hn)

/-- A sum over the contraction's positions is the sum over those numbers. -/
theorem sum_contr {M : Type*} [AddCommMonoid M] {cl : Fin sl.rank} (hc : d.lhsContracting = [cl]) (n : Nat)
    (hn : sl.size cl = n) (f : d.contr.Idx → M) :
    ∑ k, f k = ∑ i : Fin n, f ((contrFin d hc n hn).symm i) :=
  (Equiv.sum_comp (contrFin d hc n hn).symm f).symm

/-- On its contracted axis the left operand's index is the position. -/
theorem lhs_contracted {cl : Fin sl.rank} (hc : d.lhsContracting = [cl]) (n : Nat) (hn : sl.size cl = n)
    (j : so.Idx) (i : Fin n) : (d.lhsIdx j ((contrFin d hc n hn).symm i) cl).val = i.val :=
  (d.lhsIdx_val_of_single hc j _).trans (contrEquiv1_symm_val d n (contr_rank d hc) (contr_size d hc n hn) i)

/-- On its contracted axis the right operand's index is the position. -/
theorem rhs_contracted {cl : Fin sl.rank} {cr : Fin sr.rank} (hc : d.lhsContracting = [cl]) (hc' : d.rhsContracting = [cr])
    (n : Nat) (hn : sl.size cl = n) (j : so.Idx) (i : Fin n) :
    (d.rhsIdx j ((contrFin d hc n hn).symm i) cr).val = i.val :=
  (d.rhsIdx_val_of_single hc' j _).trans (contrEquiv1_symm_val d n (contr_rank d hc) (contr_size d hc n hn) i)

/-- With no batch axis, the left operand's one free axis reads the result's first coordinate, at every position. -/
theorem lhs_free {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one free axis on the left, the right operand's one free axis reads the result's second
    coordinate, at every position. -/
theorem rhs_free {nl : Fin sl.rank} {nr : Fin sr.rank} (hb : d.lhsBatch = []) (hb' : d.rhsBatch = [])
    (hn : d.lhsNonContracting = [nl]) (hn' : d.rhsNonContracting = [nr]) (j : so.Idx) (k : d.contr.Idx)
    (h1 : 1 < so.rank) : (d.rhsIdx j k nr).val = (j ⟨1, h1⟩).val := by
  have hnb : nr ∉ d.rhsBatch := by rw [hb']; exact List.not_mem_nil
  have hmem : nr ∈ d.rhsNonContracting := by rw [hn']; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn, hn'])

end Cert.Lib.Contraction

end
-- ==== Proof.Body.lean ====
/-
  The kernel body's stored value at an entry of its 400 × 1024 block, in terms of the specification's output row.

  The body flattens the 400 × 32 neighbour rows of its block to 12800 rows (row 32·p + n is neighbour n of node p), takes
  the first dense layer as one product, adds the bias row and takes the positive part, regroups the rows by node, takes the
  maximum over each node's 32 rows, and puts the pooled rows and the nodes' own rows through their dense layers; the two
  400 × 512 results sit side by side. Read at row p, column q this is the output row of node p's features.
-/
import proofs.«129768_j28767690949357_1_alg».proof.Proof.Gen.KernelIdeal.Skeleton
import proofs.«129768_j28767690949357_1_alg».proof.Proof.Spec
import proofs.«129768_j28767690949357_1_alg».proof.Proof.LibContraction
import Idealize.ShloMosaic.Lib.Pipeline.Value
import Idealize.ShloMosaic.PureOps.Ideal.Laws

noncomputable section

open scoped BigOperators

namespace Cert.NeighbourPool.Body

open Cert.KernelIdeal Cert.KernelIdeal.Gen Cert.NeighbourPool Cert.Lib.Contraction
open Idealize.ShloMosaic Idealize.ShloMosaic.ValueIdx

/-- A vector of `N` entries made a row and repeated down `R` rows: entry (p, j) is entry j. -/
theorem bias_row {R N : Nat} (hN : N ≠ 1) (v : (⟨1, ![N]⟩ : Shape).Idx → EReal)
    (hc : (⟨1, ![N]⟩ : Shape).ShapeCasts ⟨2, ![1, N]⟩) (hb : (⟨2, ![1, N]⟩ : Shape).Broadcasts ⟨2, ![R, N]⟩)
    (p : Fin R) (j : Fin N) :
    broadcastTo ⟨2, ![R, N]⟩ (shapeCast ⟨2, ![1, N]⟩ v hc) hb (ix2 p j) = v (ix1 j) := by
  refine (broadcastTo_apply _ hb (ix2 p j) (ix2 (⟨0, Nat.one_pos⟩ : Fin 1) j) (fun a => ?_)).trans ?_
  · match a with
    | ⟨0, _⟩ => show 0 = if (1 : Nat) = 1 then 0 else _; rw [if_pos rfl]
    | ⟨1, _⟩ => show j.val = if N = 1 then 0 else j.val; rw [if_neg hN]
  · refine shapeCast_apply v hc _ (ix1 j) ?_
    rw [Shape.rowMajor_val_one, Shape.rowMajor_val_two]
    show j.val = 0 * N + j.val
    omega

/-- A product of an `M × K` by a `K × N` matrix into a zero accumulator: entry (p, q) is the sum over the contracted
    coordinate of row p of the left times column q of the right. -/
theorem product_apply {M K N : Nat} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (a : FVec Ideal ⟨2, ![M, K]⟩ .f32) (b : FVec Ideal ⟨2, ![K, N]⟩ .f32)
    (p : Fin M) (q : Fin N) :
    matmul (F := Ideal) (φ₁ := .f32) (φ₂ := .f32) d prec a b (constant ⟨2, ![M, N]⟩ .f32 0x00000000#32) (ix2 p q) = ∑ k : Fin K, a (ix2 p k) * b (ix2 k q) := by
  show FloatOps.matmul (F := Ideal) (φ₁ := .f32) (φ₂ := .f32) d prec a b (constant ⟨2, ![M, N]⟩ .f32 0x00000000#32) (ix2 p q) = _
  rw [Ideal.matmul_constant_zero_apply, sum_contr d hlc K rfl]
  refine Finset.sum_congr rfl fun k _ => ?_
  have el : d.lhsIdx (ix2 p q) ((contrFin d hlc K rfl).symm k) = ix2 p k := funext fun a => Fin.ext (by
    match a with
    | ⟨0, _⟩ => exact lhs_free d hlb hln (ix2 p q) _ Nat.zero_lt_two
    | ⟨1, _⟩ => exact lhs_contracted d hlc K rfl (ix2 p q) k)
  have er : d.rhsIdx (ix2 p q) ((contrFin d hlc K rfl).symm k) = ix2 k q := funext fun a => Fin.ext (by
    match a with
    | ⟨0, _⟩ => exact rhs_contracted d hlc hrc K rfl (ix2 p q) k
    | ⟨1, _⟩ => exact rhs_free d hlb hrb hln hrn (ix2 p q) _ Nat.one_lt_two)
  rw [el, er]

variable (v0 : FVec Ideal S400x32x256 .f32) (v2 : FVec Ideal S256x10 .f32) (v4 : FVec Ideal S10 .f32)
  (v12 : FVec Ideal S10x512 .f32) (v14 : FVec Ideal S512 .f32) (v18 : FVec Ideal S400x256 .f32)
  (v19 : FVec Ideal S256x512 .f32) (v21 : FVec Ideal S512 .f32)

/-- Row 32·p + n of the flattened neighbour block is neighbour n of node p. -/
theorem flat_row (hc : S400x32x256.ShapeCasts S12800x256) (p : Fin 400) (n : Fin 32) (d : Fin 256) :
    shapeCast S12800x256 v0 hc (ix2 (⟨32 * p.val + n.val, by omega⟩ : Fin 12800) d) = v0 (ix3 p n d) := by
  refine shapeCast_apply v0 hc _ (ix3 p n d) ?_
  rw [Shape.rowMajor_val_three, Shape.rowMajor_val_two]
  show (p.val * 32 + n.val) * 256 + d.val = (32 * p.val + n.val) * 256 + d.val
  omega

/-- The node's own half of the block at (p, j). -/
theorem self_block (hc : S512.ShapeCasts S1x512) (hb : S1x512.Broadcasts S400x512) (p : Fin 400) (j : Fin 512) :
    addf (F := Ideal) (φ := .f32) (matmul (φ₁ := .f32) (φ₂ := .f32) dot_S400x256_S256x512_S400x512_1_0_0_1_n_n none v18 v19 (constant S400x512 .f32 0x00000000#32))
        (broadcastTo S400x512 (shapeCast S1x512 v21 hc) hb) (ix2 p j)
      = fromSelf (fun k => v18 (ix2 p k)) v19 v21 j := by
  unfold fromSelf
  rw [addf_apply, product_apply dot_S400x256_S256x512_S400x512_1_0_0_1_n_n rfl rfl rfl rfl rfl rfl none v18 v19 p j,
    bias_row (by decide) v21 hc hb p j]

/-- A flattened row's hidden unit is its neighbour's. -/
theorem hidden_row (hc : S400x32x256.ShapeCasts S12800x256) (hc' : S10.ShapeCasts S1x10) (hb : S1x10.Broadcasts S12800x10)
    (p : Fin 400) (n : Fin 32) (h : Fin 10) :
    maximumf (F := Ideal) (φ := .f32) (addf (matmul (φ₁ := .f32) (φ₂ := .f32) dot_S12800x256_S256x10_S12800x10_1_0_0_1_n_n none (shapeCast S12800x256 v0 hc) v2
          (constant S12800x10 .f32 0x00000000#32)) (broadcastTo S12800x10 (shapeCast S1x10 v4 hc') hb))
        (broadcast S12800x10 (Scalar.ofBits .f32 0x00000000#32)) (ix2 (⟨32 * p.val + n.val, by omega⟩ : Fin 12800) h)
      = hidden (fun d => v0 (ix3 p n d)) v2 v4 h := by
  unfold hidden
  rw [maximumf_apply, addf_apply, broadcast_apply,
    product_apply dot_S12800x256_S256x10_S12800x10_1_0_0_1_n_n rfl rfl rfl rfl rfl rfl none _ v2 _ h,
    bias_row (by decide) v4 hc' hb _ h]
  simp only [flat_row]
  rfl

/-- Putting neighbour `n` back into the index (node, unit) of the regrouped block gives (node, neighbour, unit). -/
theorem lift_neighbour (hr : S400x32x10.Reduces [1] S400x10) (p : Fin 400) (n : Fin 32) (h : Fin 10) :
    hr.lift (ix2 p h) n = ix3 p n h :=
  funext fun a => Fin.ext (by match a with | ⟨0, _⟩ => rfl | ⟨1, _⟩ => rfl | ⟨2, _⟩ => rfl)

/-- Entry (p, n, h) of the rows regrouped by node is entry (32·p + n, h) of the flat rows. -/
theorem regroup (x : FVec Ideal S12800x10 .f32) (hc : S12800x10.ShapeCasts S400x32x10) (p : Fin 400) (n : Fin 32)
    (h : Fin 10) :
    shapeCast S400x32x10 x hc (ix3 p n h) = x (ix2 (⟨32 * p.val + n.val, by omega⟩ : Fin 12800) h) := by
  refine shapeCast_apply x hc _ _ ?_
  rw [Shape.rowMajor_val_two, Shape.rowMajor_val_three]
  show (32 * p.val + n.val) * 10 + h.val = (p.val * 32 + n.val) * 10 + h.val
  omega

/-- The block's pooled hidden unit (p, h): the maximum over node p's 32 rows, folded from −∞. -/
theorem pooled_block (hc : S400x32x256.ShapeCasts S12800x256) (hc' : S10.ShapeCasts S1x10) (hb : S1x10.Broadcasts S12800x10)
    (hg : S12800x10.ShapeCasts S400x32x10) (hr : S400x32x10.Reduces [1] S400x10) (hφ : FKind.Formats .f32)
    (hacc : (0xFF800000#32 : BitVec FTy.f32.bits) = FKind.maximumf.neutral .f32 hφ) (p : Fin 400) (h : Fin 10) :
    multiReduction (F := Ideal) (φ := .f32) .maximumf [1] S400x10
        (shapeCast S400x32x10
          (maximumf (F := Ideal) (φ := .f32) (addf (matmul (φ₁ := .f32) (φ₂ := .f32) dot_S12800x256_S256x10_S12800x10_1_0_0_1_n_n none
              (shapeCast S12800x256 v0 hc) v2 (constant S12800x10 .f32 0x00000000#32))
            (broadcastTo S12800x10 (shapeCast S1x10 v4 hc') hb))
          (broadcast S12800x10 (Scalar.ofBits .f32 0x00000000#32))) hg)
        0xFF800000#32 hr hφ hacc (ix2 p h)
      = pooled (fun n d => v0 (ix3 p n d)) v2 v4 h := by
  rw [Ideal.multiReduction_maximumf_single]
  unfold pooled
  show (Finset.univ : Finset (Fin 32)).fold max (Ideal.ofBits .f32 0xFF800000#32) (_ ∘ hr.lift (ix2 p h)) = _
  exact Finset.fold_congr fun n _ =>
    (congrArg _ (lift_neighbour hr p n h)).trans ((regroup _ hg p n h).trans (hidden_row v0 v2 v4 hc hc' hb p n h))

/-- The neighbours' half of the block at (p, j). -/
theorem neigh_block (hc : S400x32x256.ShapeCasts S12800x256) (hc' : S10.ShapeCasts S1x10) (hb : S1x10.Broadcasts S12800x10)
    (hg : S12800x10.ShapeCasts S400x32x10) (hr : S400x32x10.Reduces [1] S400x10) (hφ : FKind.Formats .f32)
    (hacc : (0xFF800000#32 : BitVec FTy.f32.bits) = FKind.maximumf.neutral .f32 hφ)
    (hc4 : S512.ShapeCasts S1x512) (hb4 : S1x512.Broadcasts S400x512) (p : Fin 400) (j : Fin 512) :
    addf (F := Ideal) (φ := .f32) (matmul (φ₁ := .f32) (φ₂ := .f32) dot_S400x10_S10x512_S400x512_1_0_0_1_n_n none
        (multiReduction (F := Ideal) (φ := .f32) .maximumf [1] S400x10
          (shapeCast S400x32x10
            (maximumf (F := Ideal) (φ := .f32) (addf (matmul (φ₁ := .f32) (φ₂ := .f32) dot_S12800x256_S256x10_S12800x10_1_0_0_1_n_n none
                (shapeCast S12800x256 v0 hc) v2 (constant S12800x10 .f32 0x00000000#32))
              (broadcastTo S12800x10 (shapeCast S1x10 v4 hc') hb))
            (broadcast S12800x10 (Scalar.ofBits .f32 0x00000000#32))) hg)
          0xFF800000#32 hr hφ hacc)
        v12 (constant S400x512 .f32 0x00000000#32))
        (broadcastTo S400x512 (shapeCast S1x512 v14 hc4) hb4) (ix2 p j)
      = fromNeighs (fun n d => v0 (ix3 p n d)) v2 v4 v12 v14 j := by
  unfold fromNeighs
  rw [addf_apply, product_apply dot_S400x10_S10x512_S400x512_1_0_0_1_n_n rfl rfl rfl rfl rfl rfl none _ v12 p j,
    bias_row (by decide) v14 hc4 hb4 p j]
  simp only [pooled_block v0 v2 v4 hc hc' hb hg hr hφ hacc p]

/-- THE BODY'S STORED VALUE at (p, q) is the output row of node p's own and neighbour features, at column q. -/
theorem payload_apply (p : Fin 400) (q : Fin 1024) :
    k0_pay1 (F := Ideal) v0 v2 v4 v12 v14 v18 v19 v21 (ix2 p q)
      = rowOut (fun k => v18 (ix2 p k)) (fun n d => v0 (ix3 p n d)) v2 v4 v12 v14 v19 v21 q := by
  unfold k0_pay1
  by_cases hq : q.val < 512
  · rw [rowOut_of_lt _ _ _ _ _ _ _ _ q ⟨q.val, hq⟩ rfl]
    refine (concatenate_pair_apply_left (1 : Fin S400x1024.rank) _ _ concatenates_S400x512_S400x512_S400x1024_d1
      (ix2 p q) rfl (ix2 p ⟨q.val, hq⟩) (fun b => by match b with | ⟨0, _⟩ => rfl | ⟨1, _⟩ => rfl)).trans ?_
    exact self_block v18 v19 v21 _ _ p ⟨q.val, hq⟩
  · have hq' : q.val - 512 < 512 := by have := q.isLt; omega
    rw [rowOut_of_ge _ _ _ _ _ _ _ _ q ⟨q.val - 512, hq'⟩ (by show q.val - 512 + 512 = q.val; omega)]
    refine (concatenate_pair_apply_right (1 : Fin S400x1024.rank) _ _ concatenates_S400x512_S400x512_S400x1024_d1
      (ix2 p q) rfl rfl (ix2 p ⟨q.val - 512, hq'⟩)
      (fun b hb => by match b with | ⟨0, _⟩ => rfl | ⟨1, _⟩ => exact absurd rfl hb)
      (by show q.val - 512 + 512 = q.val; omega)).trans ?_
    exact neigh_block v0 v2 v4 v12 v14 _ _ _ _ _ _ _ _ _ p ⟨q.val - 512, hq'⟩

end Cert.NeighbourPool.Body

end
-- ==== Proof.Blocks.lean ====
/-
  From the blocks to the array: what the kernel leaves in the result array.

  The grid has 50 points; point t stages rows 400·t … 400·t + 399 of the node features and of the neighbour features and
  the whole of every weight and bias, and writes back rows 400·t … 400·t + 399 of the result. So what point t writes is
  block t of the specification of the launched arrays, the 50 blocks cover the result array, and the array ends holding
  the specification.
-/
import proofs.«129768_j28767690949357_1_alg».proof.Proof.Gen.KernelIdeal.Value
import proofs.«129768_j28767690949357_1_alg».proof.Proof.Body

noncomputable section

namespace Cert.NeighbourPool.Blocks

open Cert.KernelIdeal Cert.KernelIdeal.Gen Cert.KernelIdeal.Value Cert.NeighbourPool
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The index maps over the grid: the two feature windows and the result window are at block t on their rows, every
    other coordinate of every window is block 0; and there are 50 points. -/
theorem index_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = t.val ∧ win0_8.index t (1 : Fin 2) = 0
    ∧ t.val < 50 :=
  (by decide +kernel : ∀ t : Fin grid0.N, _)

theorem point_lt (t : Fin cfg0.N) : t.val < 50 := (index_facts t).2.2.2.2.2.2.2.2.2.2.2.2.2.2.2.2

/-- The specification of the arrays as launched, on device c. -/
abbrev spec (c : Dev nD) : S20000x1024.Idx → EReal :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-! ## The staged blocks -/

/-- Row p of point t's node-feature block is row 400·t + p of the array. -/
theorem self_rows (c : Dev nD) (t : Fin cfg0.N) (p : Fin 400) (k : Fin 256) :
    (iblk m c 0 t : FVec Ideal S400x256 .f32) (ix2 p k)
      = (m ((c : Thread nD τ).loc main_arg0) : S20000x256.Idx → EReal)
          (ix2 (⟨400 * t.val + p.val, by have := point_lt t; omega⟩ : Fin 20000) k) := by
  obtain ⟨e0, e1, -⟩ := index_facts t
  unfold iblk
  rw [View.read_apply]
  show V m c main_arg0 _ = m (c.tc.loc main_arg0) _
  unfold V
  congr 1
  funext a
  apply Fin.ext
  match a with
  | ⟨0, _⟩ => show win0_0.index t (0 : Fin 2) * 400 + 1 * p.val = 400 * t.val + p.val; rw [e0]; omega
  | ⟨1, _⟩ => show win0_0.index t (1 : Fin 2) * 256 + 1 * k.val = k.val; rw [e1]; omega

/-- Row p of point t's neighbour-feature block is row 400·t + p of the array. -/
theorem neigh_rows (c : Dev nD) (t : Fin cfg0.N) (p : Fin 400) (n : Fin 32) (d : Fin 256) :
    (iblk m c 1 t : FVec Ideal S400x32x256 .f32) (ix3 p n d)
      = (m ((c : Thread nD τ).loc main_arg1) : S20000x32x256.Idx → EReal)
          (ix3 (⟨400 * t.val + p.val, by have := point_lt t; omega⟩ : Fin 20000) n d) := by
  obtain ⟨-, -, e0, e1, e2, -⟩ := index_facts t
  unfold iblk
  rw [View.read_apply]
  show V m c main_arg1 _ = m (c.tc.loc main_arg1) _
  unfold V
  congr 1
  funext a
  apply Fin.ext
  match a with
  | ⟨0, _⟩ => show win0_1.index t (0 : Fin 3) * 400 + 1 * p.val = 400 * t.val + p.val; rw [e0]; omega
  | ⟨1, _⟩ => show win0_1.index t (1 : Fin 3) * 32 + 1 * n.val = n.val; rw [e1]; omega
  | ⟨2, _⟩ => show win0_1.index t (2 : Fin 3) * 256 + 1 * d.val = d.val; rw [e2]; omega

/-- The first layer's weights are staged whole at every point. -/
theorem w1_whole (c : Dev nD) (t : Fin cfg0.N) :
    (iblk m c 2 t : FVec Ideal S256x10 .f32) = (m ((c : Thread nD τ).loc main_arg2) : S256x10.Idx → EReal) := by
  obtain ⟨-, -, -, -, -, e0, e1, -⟩ := index_facts t
  funext y
  unfold iblk
  rw [View.read_apply]
  show V m c main_arg2 _ = m (c.tc.loc main_arg2) _
  unfold V
  congr 1
  funext a
  apply Fin.ext
  match a with
  | ⟨0, _⟩ => show win0_2.index t (0 : Fin 2) * 256 + 1 * (y 0).val = (y 0).val; rw [e0]; omega
  | ⟨1, _⟩ => show win0_2.index t (1 : Fin 2) * 10 + 1 * (y 1).val = (y 1).val; rw [e1]; omega

/-- The first layer's bias is staged whole at every point. -/
theorem b1_whole (c : Dev nD) (t : Fin cfg0.N) :
    (iblk m c 3 t : FVec Ideal S10 .f32) = (m ((c : Thread nD τ).loc main_arg3) : S10.Idx → EReal) := by
  obtain ⟨-, -, -, -, -, -, -, e0, -⟩ := index_facts t
  funext y
  unfold iblk
  rw [View.read_apply]
  show V m c main_arg3 _ = m (c.tc.loc main_arg3) _
  unfold V
  congr 1
  funext a
  apply Fin.ext
  match a with
  | ⟨0, _⟩ => show win0_3.index t (0 : Fin 1) * 10 + 1 * (y 0).val = (y 0).val; rw [e0]; omega

/-- The neighbours' second layer's weights are staged whole at every point. -/
theorem wt1_whole (c : Dev nD) (t : Fin cfg0.N) :
    (iblk m c 4 t : FVec Ideal S10x512 .f32) = (m ((c : Thread nD τ).loc main_arg4) : S10x512.Idx → EReal) := by
  obtain ⟨-, -, -, -, -, -, -, -, e0, e1, -⟩ := index_facts t
  funext y
  unfold iblk
  rw [View.read_apply]
  show V m c main_arg4 _ = m (c.tc.loc main_arg4) _
  unfold V
  congr 1
  funext a
  apply Fin.ext
  match a with
  | ⟨0, _⟩ => show win0_4.index t (0 : Fin 2) * 10 + 1 * (y 0).val = (y 0).val; rw [e0]; omega
  | ⟨1, _⟩ => show win0_4.index t (1 : Fin 2) * 512 + 1 * (y 1).val = (y 1).val; rw [e1]; omega

/-- The neighbours' second layer's bias is staged whole at every point. -/
theorem bt1_whole (c : Dev nD) (t : Fin cfg0.N) :
    (iblk m c 5 t : FVec Ideal S512 .f32) = (m ((c : Thread nD τ).loc main_arg5) : S512.Idx → EReal) := by
  obtain ⟨-, -, -, -, -, -, -, -, -, -, e0, -⟩ := index_facts t
  funext y
  unfold iblk
  rw [View.read_apply]
  show V m c main_arg5 _ = m (c.tc.loc main_arg5) _
  unfold V
  congr 1
  funext a
  apply Fin.ext
  match a with
  | ⟨0, _⟩ => show win0_5.index t (0 : Fin 1) * 512 + 1 * (y 0).val = (y 0).val; rw [e0]; omega

/-- The node's own layer's weights are staged whole at every point. -/
theorem wt2_whole (c : Dev nD) (t : Fin cfg0.N) :
    (iblk m c 6 t : FVec Ideal S256x512 .f32) = (m ((c : Thread nD τ).loc main_arg6) : S256x512.Idx → EReal) := by
  obtain ⟨-, -, -, -, -, -, -, -, -, -, -, e0, e1, -⟩ := index_facts t
  funext y
  unfold iblk
  rw [View.read_apply]
  show V m c main_arg6 _ = m (c.tc.loc main_arg6) _
  unfold V
  congr 1
  funext a
  apply Fin.ext
  match a with
  | ⟨0, _⟩ => show win0_6.index t (0 : Fin 2) * 256 + 1 * (y 0).val = (y 0).val; rw [e0]; omega
  | ⟨1, _⟩ => show win0_6.index t (1 : Fin 2) * 512 + 1 * (y 1).val = (y 1).val; rw [e1]; omega

/-- The node's own layer's bias is staged whole at every point. -/
theorem bt2_whole (c : Dev nD) (t : Fin cfg0.N) :
    (iblk m c 7 t : FVec Ideal S512 .f32) = (m ((c : Thread nD τ).loc main_arg7) : S512.Idx → EReal) := by
  obtain ⟨-, -, -, -, -, -, -, -, -, -, -, -, -, e0, -⟩ := index_facts t
  funext y
  unfold iblk
  rw [View.read_apply]
  show V m c main_arg7 _ = m (c.tc.loc main_arg7) _
  unfold V
  congr 1
  funext a
  apply Fin.ext
  match a with
  | ⟨0, _⟩ => show win0_7.index t (0 : Fin 1) * 512 + 1 * (y 0).val = (y 0).val; rw [e0]; omega

/-! ## What a point writes back -/

/-- The output row depends on its arguments only through their values. -/
theorem rowOut_congr {s s' : Fin 256 → EReal} {nbs nbs' : Fin 32 → Fin 256 → EReal}
    {W1 W1' : (⟨2, ![256, 10]⟩ : Shape).Idx → EReal} {b1 b1' : (⟨1, ![10]⟩ : Shape).Idx → EReal}
    {Wt1 Wt1' : (⟨2, ![10, 512]⟩ : Shape).Idx → EReal} {bt1 bt1' : (⟨1, ![512]⟩ : Shape).Idx → EReal}
    {Wt2 Wt2' : (⟨2, ![256, 512]⟩ : Shape).Idx → EReal} {bt2 bt2' : (⟨1, ![512]⟩ : Shape).Idx → EReal}
    (h0 : ∀ k, s k = s' k) (h1 : ∀ n d, nbs n d = nbs' n d) (h2 : W1 = W1') (h3 : b1 = b1') (h4 : Wt1 = Wt1')
    (h5 : bt1 = bt1') (h6 : Wt2 = Wt2') (h7 : bt2 = bt2') (q : Fin 1024) :
    rowOut s nbs W1 b1 Wt1 bt1 Wt2 bt2 q = rowOut s' nbs' W1' b1' Wt1' bt1' Wt2' bt2' q := by
  obtain rfl : s = s' := funext h0
  obtain rfl : nbs = nbs' := funext fun n => funext (h1 n)
  subst h2 h3 h4 h5 h6 h7
  rfl

/-- Entry (p, q) of the result block is entry (400·t + p, q) of the result array. -/
theorem out_rows (t : Fin cfg0.N) (p : Fin 400) (q : Fin 1024) :
    ((cfg0.win 8).blk t).view.emb (ix2 p q : S400x1024.Idx)
      = (ix2 (⟨400 * t.val + p.val, by have := point_lt t; omega⟩ : Fin 20000) q : S20000x1024.Idx) := by
  obtain ⟨-, -, -, -, -, -, -, -, -, -, -, -, -, -, e0, e1, -⟩ := index_facts t
  funext a
  apply Fin.ext
  match a with
  | ⟨0, _⟩ => show win0_8.index t (0 : Fin 2) * 400 + 1 * p.val = 400 * t.val + p.val; rw [e0]; omega
  | ⟨1, _⟩ => show win0_8.index t (1 : Fin 2) * 1024 + 1 * q.val = q.val; rw [e1]; omega

/-- The body's stored value at point t, entry by entry, is the specification at the entry's place in the array. -/
theorem point_value (c : Dev nD) (t : Fin cfg0.N) (y : S400x1024.Idx) :
    k0_pay1 (F := Ideal) (iblk m c 1 t) (iblk m c 2 t) (iblk m c 3 t) (iblk m c 4 t) (iblk m c 5 t) (iblk m c 0 t)
        (iblk m c 6 t) (iblk m c 7 t) y
      = spec m c (((cfg0.win 8).blk t).view.emb y) := by
  obtain ⟨p, q, rfl⟩ : ∃ (p : Fin 400) (q : Fin 1024), y = ix2 p q := ⟨y 0, y 1, eq_ix2 y⟩
  rw [out_rows t p q]
  refine (Body.payload_apply (iblk m c 1 t) (iblk m c 2 t) (iblk m c 3 t) (iblk m c 4 t) (iblk m c 5 t) (iblk m c 0 t)
    (iblk m c 6 t) (iblk m c 7 t) p q).trans ?_
  exact rowOut_congr (fun k => self_rows m c t p k) (fun n d => neigh_rows m c t p n d) (w1_whole m c t) (b1_whole m c t)
    (wt1_whole m c t) (bt1_whole m c t) (wt2_whole m c t) (bt2_whole m c t) q

/-- WHAT POINT t WRITES BACK is block t of the specification. -/
theorem flushed_eq (c : Dev nD) (t : Fin cfg0.N) :
    (dats m 0 c).flushed 8 t = ((cfg0.win 8).blk t).view.read (Elt Ideal) (spec m c) := by
  rw [flushed8]
  unfold out0_8
  rw [View.canon_unit_zero hz2]
  simp only [View.ld_unit_zero (S := S400x32x256) hz3, View.ld_unit_zero (S := S256x10) hz2,
    View.ld_unit_zero (S := S10) hz1, View.ld_unit_zero (S := S10x512) hz2, View.ld_unit_zero (S := S512) hz1,
    View.ld_unit_zero (S := S400x256) hz2, View.ld_unit_zero (S := S256x512) hz2]
  funext y
  exact point_value m c t y

/-! ## The cover, the array and the run -/

/-- An index of the result array is in point t's block iff each coordinate is in the block's range on its axis. -/
theorem mem_blk (t : Fin cfg0.N) (i : S20000x1024.Idx) :
    i ∈ ((cfg0.win 8).blk t).view.set ↔ ∀ a : Fin 2, win0_8.index t a * S400x1024.size a ≤ (i a).val
      ∧ (i a).val < win0_8.index t a * S400x1024.size a + S400x1024.size a := by
  show i ∈ ((View.whole main_v0).slice (win0_8.rect t)).set ↔ _
  rw [View.set_slice_whole, Rect.mem_set_unit]
  exact Iff.rfl

/-- Every index of the result array is in the block of the point its row falls to: row r belongs to point r / 400. -/
theorem covered (i : S20000x1024.Idx) :
    ∃ t : Fin cfg0.N, (cfg0.win 8).flush t = true ∧ i ∈ ((cfg0.win 8).blk t).view.set := by
  have hi0 : (i 0).val < 20000 := (i 0).isLt
  have hi1 : (i 1).val < 1024 := (i 1).isLt
  have hN : cfg0.N = 50 := N_0
  let t : Fin cfg0.N := ⟨(i 0).val / 400, by rw [hN]; omega⟩
  obtain ⟨-, -, -, -, -, -, -, -, -, -, -, -, -, -, e0, e1, -⟩ := index_facts t
  have ht : t.val = (i 0).val / 400 := rfl
  refine ⟨t, flush0_8 t, ?_⟩
  rw [mem_blk]
  intro a
  match a with
  | ⟨0, _⟩ => show win0_8.index t (0 : Fin 2) * 400 ≤ (i 0).val ∧ (i 0).val < win0_8.index t (0 : Fin 2) * 400 + 400; rw [e0, ht]; omega
  | ⟨1, _⟩ => show win0_8.index t (1 : Fin 2) * 1024 ≤ (i 1).val ∧ (i 1).val < win0_8.index t (1 : Fin 2) * 1024 + 1024; rw [e1]; omega

/-- THE ARRAY after the run is the specification of the launched arrays. -/
theorem final (c : Dev nD) : (dats m 0 c).arrAt 8 cfg0.N = spec m c :=
  (dats m 0 c).arrAt_eq_of_cover 8 (spec m c) (fun t _ => flushed_eq m c t) covered

/-- The kernel's run, read: the result array at the specification, the arguments unchanged. -/
theorem run : θ_run defs (onTc (τ := τ) (main (F := Ideal))) ⟨m, fun _ => 0, ρ⟩ fun r => ∀ c : Dev nD,
      r.2.mem ((c : Thread nD τ).loc main_v0) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (run_blocks m ρ)

end Cert.NeighbourPool.Blocks

end
-- ==== Proof.lean ====
/-
  A GraphSAGE-style max-pooling aggregator over 20000 nodes with 32 neighbours each, 256 features, 10 hidden units and
  2 × 512 outputs: every neighbour's features go through a dense layer and the positive part, the hidden units are pooled
  over the neighbours by the maximum, and the pooled vector and the node's own features each go through a dense layer; a
  node's result row is its own 512 outputs followed by its neighbours' 512.

  The kernel computes 400 nodes per grid point, flattening their 12800 neighbour rows into one product; the reference
  contracts the three-axis neighbour array directly. On the extended reals both are the same sums, the same maxima and the
  same sums again, entry by entry: no law beyond reading each operation at an index is needed, and the precondition is
  never opened. `Spec` states the result row; `RefValue` reads the reference's stages as that row; `Body` reads the
  kernel body's stored block as that row; `Blocks` lays the 50 blocks over the result array.
-/
import proofs.«129768_j28767690949357_1_alg».proof.Defs
import proofs.«129768_j28767690949357_1_alg».proof.Proof.Gen.Kernel
import proofs.«129768_j28767690949357_1_alg».proof.Proof.Gen.Kernel.Skeleton
import proofs.«129768_j28767690949357_1_alg».proof.Proof.Gen.Kernel.Launch
import proofs.«129768_j28767690949357_1_alg».proof.Proof.Gen.Kernel.Points
import proofs.«129768_j28767690949357_1_alg».proof.Proof.Gen.Kernel.Frame
import proofs.«129768_j28767690949357_1_alg».proof.Proof.Gen.KernelIdeal
import proofs.«129768_j28767690949357_1_alg».proof.Proof.Gen.KernelIdeal.Skeleton
import proofs.«129768_j28767690949357_1_alg».proof.Proof.Gen.KernelIdeal.Launch
import proofs.«129768_j28767690949357_1_alg».proof.Proof.Gen.KernelIdeal.Points
import proofs.«129768_j28767690949357_1_alg».proof.Proof.Gen.KernelIdeal.Frame
import proofs.«129768_j28767690949357_1_alg».proof.Proof.Gen.ReferenceIdeal
import proofs.«129768_j28767690949357_1_alg».proof.Proof.Gen.Pre_finite_inputs
import proofs.«129768_j28767690949357_1_alg».proof.Proof.Gen.KernelIdeal.Value
import proofs.«129768_j28767690949357_1_alg».proof.Proof.Gen.ReferenceIdeal.Run
import proofs.«129768_j28767690949357_1_alg».proof.Proof.Gen.ReferenceIdeal.Read
import proofs.«129768_j28767690949357_1_alg».proof.Proof.RefValue
import proofs.«129768_j28767690949357_1_alg».proof.Proof.Blocks
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the specification of their (agreeing) arguments in the result array. -/
theorem algebraic : Cert.algebraic_KernelIdeal_ReferenceIdeal := by
  intro m ρ m' ρ' _ hagree
  refine ⟨fun c => Cert.NeighbourPool.Blocks.spec m c, Cert.NeighbourPool.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.NeighbourPool.Reference.result_eq]
  obtain ⟨h0, h1, h2, h3, h4, h5, h6, h7⟩ := hagree c
  rw [h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
